-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S1x128 : Shape := ⟨2, ![1, 128]⟩

abbrev nBuf : Space → Nat
  | .hbm => 64
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000, .f32⟩
  | .hbm, ⟨62, _⟩ => ⟨S100000x1, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_cst : Ref sig .tc := ⟨.hbm, 69, rfl⟩
abbrev main_call1_v0 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Spec.lean ====
/-
  The graph-convolution layer's last step, index by index, over the extended reals.

  With `A` the aggregated neighbour features `[N, M]`, `H` the projected features `[N, M]`, `D` the squared inverse
  root degrees kept as a column `[N, 1]` and `b` the bias `[M]`, the layer's result at `(n, q)` is
  `max ((A (n, q) + D (n, 0) · H (n, q)) + b q) 0` (`epi`). A kernel that tiles the rows computes this on a tile from
  the tile's rows of `A`, `H`, `D` and the whole of `b` (`epi_tile_apply`); the plain program computes it on whole arrays
  with `D` and `b` broadcast to `[N, M]` first (`epi_whole_apply`). The two agree entry by entry with no algebra at
  all: the same sums and products in the same order. Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Spec

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

variable {N M : ℕ}

/-- The textbook product of an `[N, K]` by a `[K, M]` matrix, entry by entry. -/
def mm {K : ℕ} (x : FVec Ideal ⟨2, ![N, K]⟩ .f32) (w : FVec Ideal ⟨2, ![K, M]⟩ .f32) : FVec Ideal ⟨2, ![N, M]⟩ .f32 :=
  fun i => ∑ k : Fin K, x (ix2 (i 0) k) * w (ix2 k (i 1))

theorem mm_apply {K : ℕ} (x : FVec Ideal ⟨2, ![N, K]⟩ .f32) (w : FVec Ideal ⟨2, ![K, M]⟩ .f32) (n : Fin N) (q : Fin M) :
    mm x w (ix2 n q) = ∑ k : Fin K, x (ix2 n k) * w (ix2 k q) := rfl

/-- The layer's last step on whole arrays, entry by entry. -/
def epi (A H : FVec Ideal ⟨2, ![N, M]⟩ .f32) (D : FVec Ideal ⟨2, ![N, 1]⟩ .f32) (b : FVec Ideal ⟨1, ![M]⟩ .f32) :
    FVec Ideal ⟨2, ![N, M]⟩ .f32 :=
  fun i => max ((A i + D (ix2 (i 0) (0 : Fin 1)) * H i) + b (ix1 (i 1))) (Scalar.ofBits (F := Ideal) .f32 0x00000000#32)

theorem epi_apply (A H : FVec Ideal ⟨2, ![N, M]⟩ .f32) (D : FVec Ideal ⟨2, ![N, 1]⟩ .f32) (b : FVec Ideal ⟨1, ![M]⟩ .f32)
    (n : Fin N) (q : Fin M) :
    epi A H D b (ix2 n q) = max ((A (ix2 n q) + D (ix2 n (0 : Fin 1)) * H (ix2 n q)) + b (ix1 q)) (Scalar.ofBits (F := Ideal) .f32 0x00000000#32) := rfl

/-- ON A TILE of `R` rows: the tile's rows of `A` (`a`), of `H` (`h`) and of the column `D` (`d`) and the bias `b`, the
    column broadcast along the rows and the bias made a row and broadcast down the tile, give at `(p, q)` the same
    expression over the tile's entries. -/
theorem epi_tile_apply {R : ℕ} (b : FVec Ideal ⟨1, ![M]⟩ .f32) (d : FVec Ideal ⟨2, ![R, 1]⟩ .f32) (a h : FVec Ideal ⟨2, ![R, M]⟩ .f32)
    (h1 : (⟨1, ![M]⟩ : Shape).ShapeCasts ⟨2, ![1, M]⟩) (h2 : (⟨2, ![1, M]⟩ : Shape).ShapeCasts ⟨2, ![1, M]⟩)
    (h3 : (⟨2, ![1, M]⟩ : Shape).Broadcasts ⟨2, ![R, M]⟩) (h4 : (⟨2, ![R, 1]⟩ : Shape).ShapeCasts ⟨2, ![R, 1]⟩)
    (h5 : (⟨2, ![R, 1]⟩ : Shape).Broadcasts ⟨2, ![R, M]⟩) (h6 : (⟨2, ![R, M]⟩ : Shape).ShapeCasts ⟨2, ![R, M]⟩)
    (p : Fin R) (q : Fin M) :
    maximumf (addf (addf (shapeCast ⟨2, ![R, M]⟩ a h6)
        (mulf (broadcastTo ⟨2, ![R, M]⟩ (shapeCast ⟨2, ![R, 1]⟩ (shapeCast ⟨2, ![R, 1]⟩ d h4) h4) h5) (shapeCast ⟨2, ![R, M]⟩ h h6)))
        (broadcastTo ⟨2, ![R, M]⟩ (shapeCast ⟨2, ![1, M]⟩ (shapeCast ⟨2, ![1, M]⟩ b h1) h2) h3))
        (broadcast ⟨2, ![R, M]⟩ (Scalar.ofBits (F := Ideal) .f32 0x00000000#32)) (ix2 p q)
      = max ((a (ix2 p q) + d (ix2 p (0 : Fin 1)) * h (ix2 p q)) + b (ix1 q)) (Scalar.ofBits (F := Ideal) .f32 0x00000000#32) := by
  rw [maximumf_apply, addf_apply, addf_apply, mulf_apply, broadcast_apply, shapeCast_self, shapeCast_self, shapeCast_self,
    shapeCast_self, shapeCast_self, broadcastTo_a1_ab_apply, broadcastTo_1b_ab_apply, shapeCast_a_1a_apply]

/-- ON WHOLE ARRAYS: the column `D` broadcast to `[N, M]`, the bias made a row and broadcast to `[N, M]`, zero broadcast from a
    scalar: the plain program's expression is `epi`. -/
theorem epi_whole (A H : FVec Ideal ⟨2, ![N, M]⟩ .f32) (D : FVec Ideal ⟨2, ![N, 1]⟩ .f32) (b : FVec Ideal ⟨1, ![M]⟩ .f32)
    (g1 : (⟨2, ![N, 1]⟩ : Shape).BroadcastsInDim ⟨2, ![N, M]⟩ (![0, 1] : Fin 2 → Fin 2))
    (g2 : (⟨1, ![M]⟩ : Shape).BroadcastsInDim ⟨2, ![1, M]⟩ (![1] : Fin 1 → Fin 2))
    (g3 : (⟨2, ![1, M]⟩ : Shape).BroadcastsInDim ⟨2, ![N, M]⟩ (![0, 1] : Fin 2 → Fin 2))
    (g4 : (⟨0, ![]⟩ : Shape).BroadcastsInDim ⟨2, ![N, M]⟩ (![] : Fin 0 → Fin 2)) :
    maximumf (addf (addf A (mulf (broadcastInDim ⟨2, ![N, M]⟩ ![0, 1] g1 D) H))
        (broadcastInDim ⟨2, ![N, M]⟩ ![0, 1] g3 (broadcastInDim ⟨2, ![1, M]⟩ ![1] g2 b)))
        (broadcastInDim ⟨2, ![N, M]⟩ ![] g4 (constant (F := Ideal) ⟨0, ![]⟩ .f32 0x00000000#32))
      = epi A H D b := by
  funext i
  obtain ⟨n, q, rfl⟩ : ∃ (n : Fin N) (q : Fin M), i = ix2 n q := ⟨i 0, i 1, eq_ix2 i⟩
  rw [epi_apply, maximumf_apply, addf_apply, addf_apply, mulf_apply]
  have e1 : broadcastInDim ⟨2, ![N, M]⟩ ![0, 1] g1 D (ix2 n q) = D (ix2 n (0 : Fin 1)) :=
    broadcastInDim_apply _ g1 D (ix2 n q) (ix2 n (0 : Fin 1)) (fun ax => by
      match ax with
      | ⟨0, _⟩ => show n.val = if N = 1 then 0 else n.val; split <;> [(have := n.isLt; omega); rfl]
      | ⟨1, _⟩ => show (0 : ℕ) = if (1 : ℕ) = 1 then 0 else q.val; rw [if_pos rfl])
  have e2 : broadcastInDim ⟨2, ![N, M]⟩ ![0, 1] g3 (broadcastInDim ⟨2, ![1, M]⟩ ![1] g2 b) (ix2 n q) = b (ix1 q) := by
    rw [broadcastInDim_apply _ g3 _ (ix2 n q) (ix2 (0 : Fin 1) q) (fun ax => by
      match ax with
      | ⟨0, _⟩ => show (0 : ℕ) = if (1 : ℕ) = 1 then 0 else n.val; rw [if_pos rfl]
      | ⟨1, _⟩ => show q.val = if M = 1 then 0 else q.val; split <;> [(have := q.isLt; omega); rfl])]
    exact broadcastInDim_apply _ g2 b (ix2 (0 : Fin 1) q) (ix1 q) (fun ax => by
      match ax with
      | ⟨0, _⟩ => show q.val = if M = 1 then 0 else q.val; split <;> [(have := q.isLt; omega); rfl])
  have e3 : broadcastInDim ⟨2, ![N, M]⟩ ![] g4 (constant (F := Ideal) ⟨0, ![]⟩ .f32 0x00000000#32) (ix2 n q)
      = Scalar.ofBits (F := Ideal) .f32 0x00000000#32 :=
    broadcastInDim_apply _ g4 _ (ix2 n q) ix0 (fun ax => ax.elim0)
  rw [e1, e2, e3]

end Cert.Spec

end
-- ==== Proof.RefValue.lean ====
/-
  The plain program's result as the layer's last step of the textbook projection.

  The plain program computes the projection `H = x · w` by one `dot_general`, the normalised edge weights and the
  squared inverse root degrees from the edge list and the edge weights alone, the aggregate by gathering rows of `H` at
  the edges' sources, scaling them and scatter-adding them at the edges' destinations (`agg`, a function of `H`, the edge
  list and the edge weights), and then `relu (agg + dinv² · H + bias)`. Over the extended reals the `dot_general` is the
  textbook sum (`proj_eq`), and the final expression is `Spec.epi` of the aggregate, the projection, the degree column
  and the bias (`result_eq`). The gathers and scatters are never opened: they are the same functions on both sides.
-/
import proofs.«121368_j70317204570425_1_alg».proof.Proof.Gen.ReferenceIdeal.Run
import proofs.«121368_j70317204570425_1_alg».proof.Proof.Gen.ReferenceIdeal.Read
import proofs.«121368_j70317204570425_1_alg».proof.Proof.LibAffineRows
import proofs.«121368_j70317204570425_1_alg».proof.Proof.Spec

noncomputable section

namespace Cert.Bridge

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-- The aggregated neighbour features, from the projected features `H`, the edge list `ei` and the edge weights `ew`: rows
    of `H` gathered at the edges' sources, scaled by the normalised edge weights, scatter-added at the edges' destinations. -/
def agg (H : (⟨S100000x128, .f32⟩ : BufTy).Contents (Elt F)) (ei : (⟨S2x1600000, .i32⟩ : BufTy).Contents (Elt F))
    (ew : (⟨S1600000, .f32⟩ : BufTy).Contents (Elt F)) : (⟨S100000x128, .f32⟩ : BufTy).Contents (Elt F) :=
  Host.scatterAdd scatter_S100000x128_S1600000x1_S1600000x128_1_0_0_1 (val_main_v40 (F := F)) (val_main_v41 (F := F) ei)
    (mulf (val_main_v38 (F := F) ei ew)
      (Host.gather gather_S100000x128_S1600000x1_S1600000x128_1_0_n_n_0_1_1128 H (val_main_v36 (F := F) ei)))

/-- The plain program's aggregate is `agg` of its own projection. -/
theorem val_main_v42_eq (x0 : (⟨S100000x128, .f32⟩ : BufTy).Contents (Elt F)) (x1 : (⟨S2x1600000, .i32⟩ : BufTy).Contents (Elt F))
    (x2 : (⟨S1600000, .f32⟩ : BufTy).Contents (Elt F)) (x3 : (⟨S128x128, .f32⟩ : BufTy).Contents (Elt F)) :
    val_main_v42 (F := F) x0 x1 x2 x3 = agg (val_main_v29 (F := F) x0 x3) x1 x2 := rfl

/-- The reference's dimension numbers describe the plain product `[100000, 128] · [128, 128]`. -/
theorem plain_ref : Cert.Lib.PlainDot (R := 100000) (K := 128) (M := 128) dot_S100000x128_S128x128_S100000x128_1_0_0_1_n_n where
  rank := rfl
  size := rfl
  l0 := fun i q => lhs_main_v29_0 i q
  l1 := fun i q => lhs_main_v29_1 i q
  r0 := fun i q => rhs_main_v29_0 i q
  r1 := fun i q => rhs_main_v29_1 i q

/-- Over the extended reals the host's `dot_general` is the textbook product. -/
theorem proj_eq (x0 : (⟨S100000x128, .f32⟩ : BufTy).Contents (Elt Ideal)) (x3 : (⟨S128x128, .f32⟩ : BufTy).Contents (Elt Ideal)) :
    val_main_v29 (F := Ideal) x0 x3 = Cert.Spec.mm (N := 100000) (K := 128) (M := 128) x0 x3 := by
  funext i
  obtain ⟨n, q, rfl⟩ : ∃ (n : Fin 100000) (q : Fin 128), i = ix2 n q := ⟨i 0, i 1, eq_ix2 i⟩
  unfold val_main_v29
  exact Cert.Lib.dotGeneral_apply plain_ref x0 x3 n q

/-- THE PLAIN PROGRAM'S RESULT: the layer's last step of the aggregate of the textbook projection, that projection, the
    squared inverse root degrees as a column, and the bias. -/
theorem result_eq (m : (ℓ : Loc nD τ sig) → Buf (Elt Ideal) ℓ) (c : Dev nD) :
    Cert.ReferenceIdeal.Value.res_main_v51 (F := Ideal) m c
      = Cert.Spec.epi (N := 100000) (M := 128)
          (agg (Cert.Spec.mm (N := 100000) (K := 128) (M := 128) (m ((c.tc : Thread nD τ).loc main_arg0)) (m ((c.tc : Thread nD τ).loc main_arg3)))
            (m ((c.tc : Thread nD τ).loc main_arg1)) (m ((c.tc : Thread nD τ).loc main_arg2)))
          (Cert.Spec.mm (N := 100000) (K := 128) (M := 128) (m ((c.tc : Thread nD τ).loc main_arg0)) (m ((c.tc : Thread nD τ).loc main_arg3)))
          (val_main_v44 (F := Ideal) (m ((c.tc : Thread nD τ).loc main_arg1)) (m ((c.tc : Thread nD τ).loc main_arg2)))
          (m ((c.tc : Thread nD τ).loc main_arg4)) := by
  rw [val_main_v51_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  rw [← proj_eq x0 x3]
  exact Cert.Spec.epi_whole (N := 100000) (M := 128) (agg (val_main_v29 (F := Ideal) x0 x3) x1 x2) (val_main_v29 (F := Ideal) x0 x3)
    (val_main_v44 (F := Ideal) x1 x2) x4 bcast_S100000x1_S100000x128_0_1 bcast_S128_S1x128_1 bcast_S1x128_S100000x128_0_1 bcast_S_S100000x128

end Cert.Bridge

end
-- ==== Proof.KernelHost.lean ====
/-
  The kernel program's host operations, read between its two kernels.

  Around its two kernels the kernel program runs the very host operations the plain program runs: the edge list split into
  destinations and sources, the degrees and their inverse roots, the normalised edge weights, and — after the first kernel
  has left the projection `H` in its array — the gather of `H`'s rows, their scaling and scatter-add (`Bridge.agg` of `H`) and
  the squared inverse root degrees as a column. Each buffer the second kernel reads is therefore the plain program's
  value of the same name, the aggregate with the kernel's `H` in place of the `dot_general`; the arguments are untouched.
  The gathers and scatters are never opened.
-/
import proofs.«121368_j70317204570425_1_alg».proof.Proof.Gen.KernelIdeal.Frame
import proofs.«121368_j70317204570425_1_alg».proof.Proof.RefValue

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first kernel -/

/-- The edges' destinations. -/
theorem W3_v1 (c : Dev nD) : W3 m ρ c (Proc.devRef .tc main_v1)
    = Cert.ReferenceIdeal.Read.val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The edges' sources. -/
theorem W3_v3 (c : Dev nD) : W3 m ρ c (Proc.devRef .tc main_v3)
    = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The inverse root degrees. -/
theorem W3_v12 (c : Dev nD) : W3 m ρ c (Proc.devRef .tc main_v12)
    = Cert.ReferenceIdeal.Read.val_main_v12 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v12) = _
  after_results_simp
  rfl

/-- The normalised edge weights. -/
theorem W3_v28 (c : Dev nD) : W3 m ρ c (Proc.devRef .tc main_v28)
    = Cert.ReferenceIdeal.Read.val_main_v28 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v28) = _
  after_results_simp
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-! ## Across the first kernel: it writes its result array and nothing else -/

theorem W4_v1 (c : Dev nD) : W4 m ρ c (Proc.devRef .tc main_v1)
    = Cert.ReferenceIdeal.Read.val_main_v1 (F := F) (m ((c : Thread nD τ).loc main_arg1)) :=
  (W4_of_ne m ρ c main_v1 (by decide)).trans (W3_v1 m ρ c)
theorem W4_v3 (c : Dev nD) : W4 m ρ c (Proc.devRef .tc main_v3)
    = Cert.ReferenceIdeal.Read.val_main_v3 (F := F) (m ((c : Thread nD τ).loc main_arg1)) :=
  (W4_of_ne m ρ c main_v3 (by decide)).trans (W3_v3 m ρ c)
theorem W4_v12 (c : Dev nD) : W4 m ρ c (Proc.devRef .tc main_v12)
    = Cert.ReferenceIdeal.Read.val_main_v12 (F := F) (m ((c : Thread nD τ).loc main_arg1)) (m ((c : Thread nD τ).loc main_arg2)) :=
  (W4_of_ne m ρ c main_v12 (by decide)).trans (W3_v12 m ρ c)
theorem W4_v28 (c : Dev nD) : W4 m ρ c (Proc.devRef .tc main_v28)
    = Cert.ReferenceIdeal.Read.val_main_v28 (F := F) (m ((c : Thread nD τ).loc main_arg1)) (m ((c : Thread nD τ).loc main_arg2)) :=
  (W4_of_ne m ρ c main_v28 (by decide)).trans (W3_v28 m ρ c)
theorem W4_arg4 (c : Dev nD) : W4 m ρ c (Proc.devRef .tc main_arg4) = m ((c : Thread nD τ).loc main_arg4) :=
  (W4_of_ne m ρ c main_arg4 (by decide)).trans (W3_arg4 m ρ c)

/-- The first kernel's result array holds what its pipeline leaves. -/
theorem W4_v29 (c : Dev nD) : W4 m ρ c (Proc.devRef .tc main_v29) = (dat0 (V3 m ρ) c).arrAt 2 cfg0.N :=
  W4_arr m ρ c 2

/-! ## Before the second kernel -/

/-- The aggregate: `agg` of the first kernel's array. -/
theorem W5_v42 (c : Dev nD) : W5 m ρ c (Proc.devRef .tc main_v42)
    = agg (F := F) (W4 m ρ c (Proc.devRef .tc main_v29)) (m ((c : Thread nD τ).loc main_arg1)) (m ((c : Thread nD τ).loc main_arg2)) := by
  show StableHlo.after hostOps1 (W4 m ρ c) (Proc.devRef .tc main_v42) = _
  after_results_simp
  rw [W4_v1, W4_v3, W4_v28]
  generalize W4 m ρ c (Proc.devRef .tc main_v29) = H
  rfl

/-- The squared inverse root degrees as a column. -/
theorem W5_v44 (c : Dev nD) : W5 m ρ c (Proc.devRef .tc main_v44)
    = Cert.ReferenceIdeal.Read.val_main_v44 (F := F) (m ((c : Thread nD τ).loc main_arg1)) (m ((c : Thread nD τ).loc main_arg2)) := by
  show StableHlo.after hostOps1 (W4 m ρ c) (Proc.devRef .tc main_v44) = _
  after_results_simp
  rw [W4_v12]
  rfl

/-- The projection is still the first kernel's array. -/
theorem W5_v29 (c : Dev nD) : W5 m ρ c (Proc.devRef .tc main_v29) = W4 m ρ c (Proc.devRef .tc main_v29) := by
  show StableHlo.after hostOps1 (W4 m ρ c) (Proc.devRef .tc main_v29) = _
  after_results_simp

theorem W5_arg4 (c : Dev nD) : W5 m ρ c (Proc.devRef .tc main_arg4) = m ((c : Thread nD τ).loc main_arg4) := by
  show StableHlo.after hostOps1 (W4 m ρ c) (Proc.devRef .tc main_arg4) = _
  after_results_simp
  exact W4_arg4 m ρ c

end Cert.Bridge

end
-- ==== Proof.Region0.lean ====
/-
  The first kernel's array: the textbook projection.

  The first kernel walks the 100000 rows of `x` in 20 tiles of 5000 rows. At tile `t` it loads rows
  `5000·t … 5000·t + 4999` of `x` and the whole of `w`, narrows both to bf16 (the identity on extended reals), multiplies them on
  the matrix unit into zeros, and writes the product back as rows `5000·t …` of the result. Entry `(p, q)` of tile `t`'s product
  is `∑ k, x (5000·t + p, k) · w (k, q)`, which is entry `(5000·t + p, q)` of the textbook product `Spec.mm x w`; the 20 tiles
  cover every row, so the array the kernel leaves is `Spec.mm x w`.
-/
import proofs.«121368_j70317204570425_1_alg».proof.Proof.Gen.KernelIdeal.Frame
import proofs.«121368_j70317204570425_1_alg».proof.Proof.LibAffineRows
import proofs.«121368_j70317204570425_1_alg».proof.Proof.Spec

set_option maxRecDepth 16384

noncomputable section

namespace Cert.KernelIdeal.Proj

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The matrix unit's dimension numbers describe the plain product of a tile by `w` -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem plain_tile : Cert.Lib.PlainDot (R := 5000) (K := 128) (M := 128) dot_S5000x128_S128x128_S5000x128_1_0_0_1_n_n where
  rank := rfl
  size := rfl
  l0 := fun i q => lhs_0 i q
  l1 := fun i q => lhs_1 i q
  r0 := fun i q => rhs_0 i q
  r1 := fun i q => rhs_1 i q

/-- The body's stored value at `(p, q)`: the tile's row `p` against `w`'s column `q`. -/
theorem pay_apply (xb : Vec Ideal S5000x128 .f32) (w : Vec Ideal S128x128 .f32) (p : Fin 5000) (q : Fin 128) :
    k0_pay1 xb w (ix2 p q) = ∑ k : Fin 128, xb (ix2 p k) * w (ix2 k q) := by
  unfold k0_pay1
  exact Cert.Lib.matmul_zero_apply plain_tile xb w bitsLt_bf16_f32 p q

/-! ## Where a tile's entries sit in the arrays -/

/-- The printed index maps over the grid: tile `t` of `x` and of the result is block row `t`, block column 0; `w`'s one
    block is the whole of `w`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of tile `t` is row `5000·t + p` of the array. -/
def row (t : Fin cfg0.N) (p : Fin 5000) : Fin 100000 :=
  ⟨t.val * 5000 + p.val, by have h1 : t.val < 20 := lt_of_lt_of_eq t.isLt N_0; have h2 := p.isLt; omega⟩

theorem emb0 (t : Fin cfg0.N) (p : Fin 5000) (k : Fin 128) :
    ((cfg0.win 0).blk t).view.emb (ix2 p k) = ix2 (row t p) k := by
  obtain ⟨e0, e1, e2, e3, e4, e5⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem emb1 (t : Fin cfg0.N) (k : Fin 128) (q : Fin 128) :
    ((cfg0.win 1).blk t).view.emb (ix2 k q) = ix2 k q := by
  obtain ⟨e0, e1, e2, e3, e4, e5⟩ := idx_facts t
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

theorem emb2 (t : Fin cfg0.N) (p : Fin 5000) (q : Fin 128) :
    ((cfg0.win 2).blk t).view.emb (ix2 p q) = ix2 (row t p) q := by
  obtain ⟨e0, e1, e2, e3, e4, e5⟩ := idx_facts t
  funext a; apply Fin.ext
  match a with
  | ⟨0, _⟩ => show win0_2.index t (0 : Fin 2) * 5000 + 1 * p.val = t.val * 5000 + p.val; rw [e4]; omega
  | ⟨1, _⟩ => show win0_2.index t (1 : Fin 2) * 128 + 1 * q.val = q.val; rw [e5]; omega

/-- A tile of `x`, read at `(p, k)`, is `x` at row `5000·t + p`. -/
theorem xblk_apply (c : Dev nD) (t : Fin cfg0.N) (p : Fin 5000) (k : Fin 128) :
    iblk0 V c 0 t (ix2 p k) = V c main_arg0 (ix2 (row t p) k) := by
  show V c main_arg0 (((cfg0.win 0).blk t).view.emb (ix2 p k)) = _
  rw [emb0]

/-- `w`'s block is `w`. -/
theorem wblk_apply (c : Dev nD) (t : Fin cfg0.N) (k : Fin 128) (q : Fin 128) :
    iblk0 V c 1 t (ix2 k q) = V c main_arg3 (ix2 k q) := by
  show V c main_arg3 (((cfg0.win 1).blk t).view.emb (ix2 k q)) = _
  rw [emb1]

/-! ## What a point writes back, the cover, the array -/

/-- WHAT POINT `t` WRITES BACK is block `t` of the textbook product of the arrays as the region finds them. -/
theorem flushed_eq (c : Dev nD) (t : Fin cfg0.N) :
    (dat0 V c).flushed 2 t = ((cfg0.win 2).blk t).view.read (Elt Ideal)
      (Cert.Spec.mm (N := 100000) (K := 128) (M := 128) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.mm (N := 100000) (K := 128) (M := 128) (V c main_arg0) (V c main_arg3) (((cfg0.win 2).blk t).view.emb (ix2 p q))
  rw [emb2, Cert.Spec.mm_apply]
  refine (pay_apply (iblk0 V c 0 t) (iblk0 V c 1 t) p q).trans ?_
  refine Finset.sum_congr rfl fun k _ => ?_
  rw [xblk_apply, wblk_apply]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row is in some tile: row `r` in tile `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- THE ARRAY the first kernel leaves: the textbook product of `x` and `w` as the region finds them. -/
theorem final (c : Dev nD) :
    (dat0 V c).arrAt 2 cfg0.N = Cert.Spec.mm (N := 100000) (K := 128) (M := 128) (V c main_arg0) (V c main_arg3) :=
  (dat0 V c).arrAt_eq_of_cover 2 _ (fun t _ => flushed_eq V c t) cover

end Cert.KernelIdeal.Proj

end
-- ==== Proof.Region1.lean ====
/-
  The second kernel's array: the layer's last step.

  The second kernel walks the 100000 rows in 20 tiles of 5000 rows. At tile `t` it loads rows `5000·t …` of the aggregate `A`,
  of the projection `H` and of the degree column `D`, and the whole bias `b`, and writes back
  `max ((A + D · H) + b) 0` for those rows, `D` broadcast along a row and `b` down the tile. Entry `(p, q)` of tile `t` is entry
  `(5000·t + p, q)` of `Spec.epi A H D b`; the 20 tiles cover every row, so the array the kernel leaves is `Spec.epi A H D b`
  of the arrays as the region finds them.
-/
import proofs.«121368_j70317204570425_1_alg».proof.Proof.Gen.KernelIdeal.Frame
import proofs.«121368_j70317204570425_1_alg».proof.Proof.Spec

set_option maxRecDepth 16384

noncomputable section

namespace Cert.KernelIdeal.Epi

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at `(p, q)`, from the tile's entries. -/
theorem pay_apply (b : Vec Ideal S128 .f32) (d : Vec Ideal S5000x1 .f32) (a h : Vec Ideal S5000x128 .f32) (p : Fin 5000) (q : Fin 128) :
    k1_pay1 b d a h (ix2 p q)
      = max ((a (ix2 p q) + d (ix2 p (0 : Fin 1)) * h (ix2 p q)) + b (ix1 q)) (Scalar.ofBits (F := Ideal) .f32 0x00000000#32) := by
  unfold k1_pay1
  exact Cert.Spec.epi_tile_apply (R := 5000) (M := 128) b d a h shapeCasts_S128_S1x128 shapeCasts_S1x128_S1x128 broadcasts_S1x128_S5000x128
    shapeCasts_S5000x1_S5000x1 broadcasts_S5000x1_S5000x128 shapeCasts_S5000x128_S5000x128 p q

/-! ## Where a tile's entries sit in the arrays -/

/-- The printed index maps over the grid: tile `t` of the aggregate, the projection, the degree column and the result is
    block row `t`, block column 0; the bias's one block is the whole bias. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `p` of tile `t` is row `5000·t + p` of the array. -/
def row (t : Fin cfg1.N) (p : Fin 5000) : Fin 100000 :=
  ⟨t.val * 5000 + p.val, by have h1 : t.val < 20 := lt_of_lt_of_eq t.isLt N_1; have h2 := p.isLt; omega⟩

theorem emb0 (t : Fin cfg1.N) (p : Fin 5000) (q : Fin 128) :
    ((cfg1.win 0).blk t).view.emb (ix2 p q) = ix2 (row t p) q := by
  obtain ⟨e0, e1, e2, e3, e4, e5, e6, e7, e8⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem emb1 (t : Fin cfg1.N) (p : Fin 5000) (q : Fin 128) :
    ((cfg1.win 1).blk t).view.emb (ix2 p q) = ix2 (row t p) q := by
  obtain ⟨e0, e1, e2, e3, e4, e5, e6, e7, e8⟩ := idx_facts t
  funext a; apply Fin.ext
  match a with
  | ⟨0, _⟩ => show win1_1.index t (0 : Fin 2) * 5000 + 1 * p.val = t.val * 5000 + p.val; rw [e2]; omega
  | ⟨1, _⟩ => show win1_1.index t (1 : Fin 2) * 128 + 1 * q.val = q.val; rw [e3]; omega

theorem emb2 (t : Fin cfg1.N) (p : Fin 5000) :
    ((cfg1.win 2).blk t).view.emb (ix2 p (0 : Fin 1)) = ix2 (row t p) (0 : Fin 1) := by
  obtain ⟨e0, e1, e2, e3, e4, e5, e6, e7, e8⟩ := idx_facts t
  funext a; apply Fin.ext
  match a with
  | ⟨0, _⟩ => show win1_2.index t (0 : Fin 2) * 5000 + 1 * p.val = t.val * 5000 + p.val; rw [e4]; omega
  | ⟨1, _⟩ => show win1_2.index t (1 : Fin 2) * 1 + 1 * 0 = 0; rw [e5]

theorem emb3 (t : Fin cfg1.N) (q : Fin 128) :
    ((cfg1.win 3).blk t).view.emb (ix1 q) = ix1 q := by
  obtain ⟨e0, e1, e2, e3, e4, e5, e6, e7, e8⟩ := idx_facts t
  funext a; apply Fin.ext
  match a with
  | ⟨0, _⟩ => show win1_3.index t (0 : Fin 1) * 128 + 1 * q.val = q.val; rw [e6]; omega

theorem emb4 (t : Fin cfg1.N) (p : Fin 5000) (q : Fin 128) :
    ((cfg1.win 4).blk t).view.emb (ix2 p q) = ix2 (row t p) q := by
  obtain ⟨e0, e1, e2, e3, e4, e5, e6, e7, e8⟩ := idx_facts t
  funext a; apply Fin.ext
  match a with
  | ⟨0, _⟩ => show win1_4.index t (0 : Fin 2) * 5000 + 1 * p.val = t.val * 5000 + p.val; rw [e7]; omega
  | ⟨1, _⟩ => show win1_4.index t (1 : Fin 2) * 128 + 1 * q.val = q.val; rw [e8]; omega

theorem ablk_apply (c : Dev nD) (t : Fin cfg1.N) (p : Fin 5000) (q : Fin 128) :
    iblk1 V c 0 t (ix2 p q) = V c main_v42 (ix2 (row t p) q) := by
  show V c main_v42 (((cfg1.win 0).blk t).view.emb (ix2 p q)) = _
  rw [emb0]

theorem hblk_apply (c : Dev nD) (t : Fin cfg1.N) (p : Fin 5000) (q : Fin 128) :
    iblk1 V c 1 t (ix2 p q) = V c main_v29 (ix2 (row t p) q) := by
  show V c main_v29 (((cfg1.win 1).blk t).view.emb (ix2 p q)) = _
  rw [emb1]

theorem dblk_apply (c : Dev nD) (t : Fin cfg1.N) (p : Fin 5000) :
    iblk1 V c 2 t (ix2 p (0 : Fin 1)) = V c main_v44 (ix2 (row t p) (0 : Fin 1)) := by
  show V c main_v44 (((cfg1.win 2).blk t).view.emb (ix2 p (0 : Fin 1))) = _
  rw [emb2]

theorem bblk_apply (c : Dev nD) (t : Fin cfg1.N) (q : Fin 128) :
    iblk1 V c 3 t (ix1 q) = V c main_arg4 (ix1 q) := by
  show V c main_arg4 (((cfg1.win 3).blk t).view.emb (ix1 q)) = _
  rw [emb3]

/-! ## What a point writes back, the cover, the array -/

/-- WHAT POINT `t` WRITES BACK is block `t` of the layer's last step of the arrays as the region finds them. -/
theorem flushed_eq (c : Dev nD) (t : Fin cfg1.N) :
    (dat1 V c).flushed 4 t = ((cfg1.win 4).blk t).view.read (Elt Ideal)
      (Cert.Spec.epi (N := 100000) (M := 128) (V c main_v42) (V c main_v29) (V c main_v44) (V c main_arg4)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S5000x1) hz2, View.ld_unit_zero (S := S128) hz1]
  funext j
  obtain ⟨p, q, rfl⟩ : ∃ (p : Fin 5000) (q : Fin 128), j = ix2 p q := ⟨j 0, j 1, eq_ix2 j⟩
  show k1_pay1 (iblk1 V c 3 t) (iblk1 V c 2 t) (iblk1 V c 0 t) (iblk1 V c 1 t) (ix2 p q)
    = Cert.Spec.epi (N := 100000) (M := 128) (V c main_v42) (V c main_v29) (V c main_v44) (V c main_arg4) (((cfg1.win 4).blk t).view.emb (ix2 p q))
  rw [emb4, Cert.Spec.epi_apply]
  refine (pay_apply (iblk1 V c 3 t) (iblk1 V c 2 t) (iblk1 V c 0 t) (iblk1 V c 1 t) p q).trans ?_
  rw [ablk_apply, hblk_apply, dblk_apply, bblk_apply]

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v45).slice (win1_4.rect t)).set ↔ _
  rw [View.set_slice_whole, Rect.mem_set_unit]
  exact Iff.rfl

/-- Every row is in some tile: row `r` in tile `r / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e0, e1, e2, e3, e4, e5, e6, e7, e8⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e7, ht]; omega
  | ⟨1, _⟩ => show win1_4.index t (1 : Fin 2) * 128 ≤ (i 1).val ∧ (i 1).val < win1_4.index t (1 : Fin 2) * 128 + 128; rw [e8]; omega

/-- THE ARRAY the second kernel leaves: the layer's last step of the arrays as the region finds them. -/
theorem final (c : Dev nD) :
    (dat1 V c).arrAt 4 cfg1.N
      = Cert.Spec.epi (N := 100000) (M := 128) (V c main_v42) (V c main_v29) (V c main_v44) (V c main_arg4) :=
  (dat1 V c).arrAt_eq_of_cover 4 _ (fun t _ => flushed_eq V c t) cover

end Cert.KernelIdeal.Epi

end
-- ==== Proof.lean ====
/-
  A graph-convolution layer, `relu (D^(-1/2) (A + I) D^(-1/2) (x · w) + b)`, computed by two row-tiled kernels around the
  host's gathers and scatters, against the same layer written with plain array operations.

  Both programs compute, with the very same host operations, the degrees `deg = segment_sum ew + 1`, their inverse roots
  (0 where the degree is not positive), the normalised edge weights, and — from the projected features `H` — the aggregate
  `agg H` (rows of `H` gathered at the edges' sources, scaled, scatter-added at the destinations) and the column of squared
  inverse root degrees. They differ in two places only. The projection: the kernel program tiles the rows of `x` and multiplies
  each tile by `w` on the matrix unit, operands narrowed to bf16, accumulating into zeros; the plain program calls one
  `dot_general`. Over the extended reals narrowing is the identity and both are the textbook sum `∑ k, x (n, k) · w (k, q)`
  (`Spec.mm`: Proof/Region0.lean for the tiles, Proof/RefValue.lean for the `dot_general`). The last step: the kernel program
  tiles the rows again and computes `max ((agg + dinv² · H) + b) 0` on each tile from the tile's rows, the plain program
  on whole arrays after broadcasting; entry by entry these are the same sums and products in the same order (`Spec.epi`:
  Proof/Region1.lean, Proof/Spec.lean). Since both programs feed the same `H` to the same `agg`, the results agree entry by
  entry, with no law of arithmetic used and no appeal to finiteness; the gathers and scatters are never opened.

  The run of the kernel program with its result array named is Proof/KernelRun.lean; what its host operations leave in the
  buffers the second kernel reads is Proof/KernelHost.lean.
-/
import proofs.«121368_j70317204570425_1_alg».proof.Defs
import proofs.«121368_j70317204570425_1_alg».proof.Proof.Gen.Kernel
import proofs.«121368_j70317204570425_1_alg».proof.Proof.Gen.Kernel.Frame
import proofs.«121368_j70317204570425_1_alg».proof.Proof.Gen.KernelIdeal
import proofs.«121368_j70317204570425_1_alg».proof.Proof.Gen.KernelIdeal.Frame
import proofs.«121368_j70317204570425_1_alg».proof.Proof.Gen.ReferenceIdeal
import proofs.«121368_j70317204570425_1_alg».proof.Proof.Gen.ReferenceIdeal.Run
import proofs.«121368_j70317204570425_1_alg».proof.Proof.Gen.Pre_finite_inputs
import proofs.«121368_j70317204570425_1_alg».proof.Proof.KernelRun
import proofs.«121368_j70317204570425_1_alg».proof.Proof.KernelHost
import proofs.«121368_j70317204570425_1_alg».proof.Proof.Region0
import proofs.«121368_j70317204570425_1_alg».proof.Proof.Region1
import proofs.«121368_j70317204570425_1_alg».proof.Proof.RefValue

noncomputable section

namespace Cert.Proof

open Idealize.ShloMosaic Idealize.ShloMosaic.TcCoe Idealize.SL.Sem

/-! ## The kernel program's result array -/

section KernelValue

open Cert.KernelIdeal Cert.KernelIdeal.Gen

/-- THE KERNEL PROGRAM'S RESULT ARRAY after the run: the layer's last step of the aggregate of the textbook projection, that
    projection, the squared inverse root degrees as a column, and the bias, all of the argument arrays as launched. -/
theorem kernel_result (m : (ℓ : Loc nD τ sig) → Buf (Elt Ideal) ℓ) (ρ : Dev nD → PrngReg) (c : Dev nD) :
    W6 m ρ c (Proc.devRef .tc main_v45)
      = Cert.Spec.epi (N := 100000) (M := 128)
          (Cert.Bridge.agg (F := Ideal)
            (Cert.Spec.mm (N := 100000) (K := 128) (M := 128) (m ((c : Thread nD τ).loc main_arg0)) (m ((c : Thread nD τ).loc main_arg3)))
            (m ((c : Thread nD τ).loc main_arg1)) (m ((c : Thread nD τ).loc main_arg2)))
          (Cert.Spec.mm (N := 100000) (K := 128) (M := 128) (m ((c : Thread nD τ).loc main_arg0)) (m ((c : Thread nD τ).loc main_arg3)))
          (Cert.ReferenceIdeal.Read.val_main_v44 (F := Ideal) (m ((c : Thread nD τ).loc main_arg1)) (m ((c : Thread nD τ).loc main_arg2)))
          (m ((c : Thread nD τ).loc main_arg4)) := by
  refine (W6_arr m ρ c 4).trans ?_
  rw [Cert.KernelIdeal.Epi.final (V5 m ρ) c]
  show Cert.Spec.epi (N := 100000) (M := 128) (W5 m ρ c (Proc.devRef .tc main_v42)) (W5 m ρ c (Proc.devRef .tc main_v29))
    (W5 m ρ c (Proc.devRef .tc main_v44)) (W5 m ρ c (Proc.devRef .tc main_arg4)) = _
  rw [Cert.Bridge.W5_v42, Cert.Bridge.W5_v29, Cert.Bridge.W5_v44, Cert.Bridge.W5_arg4, Cert.Bridge.W4_v29,
    Cert.KernelIdeal.Proj.final (V3 m ρ) c]
  show Cert.Spec.epi (N := 100000) (M := 128)
    (Cert.Bridge.agg (F := Ideal)
      (Cert.Spec.mm (N := 100000) (K := 128) (M := 128) (W3 m ρ c (Proc.devRef .tc main_arg0)) (W3 m ρ c (Proc.devRef .tc main_arg3)))
      (m ((c : Thread nD τ).loc main_arg1)) (m ((c : Thread nD τ).loc main_arg2)))
    (Cert.Spec.mm (N := 100000) (K := 128) (M := 128) (W3 m ρ c (Proc.devRef .tc main_arg0)) (W3 m ρ c (Proc.devRef .tc main_arg3)))
    _ _ = _
  rw [Cert.Bridge.W3_arg0, Cert.Bridge.W3_arg3]

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel program is the kernel program's own text read over the extended
    reals. -/
theorem preserves : Cert.preserves_Kernel_KernelIdeal := trivial

/-- From memories that agree on the arguments both programs end with the same result array: `kernel_result` on one side,
    `Bridge.result_eq` on the other, the same function of the arguments. -/
theorem algebraic : Cert.algebraic_KernelIdeal_ReferenceIdeal := by
  intro m ρ m' ρ' _ hagree
  refine ⟨fun c => Cert.Spec.epi (N := 100000) (M := 128)
      (Cert.Bridge.agg (F := Ideal)
        (Cert.Spec.mm (N := 100000) (K := 128) (M := 128) (m ((c.tc : Thread Cert.KernelIdeal.nD Cert.KernelIdeal.τ).loc Cert.KernelIdeal.main_arg0))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.Spec.mm (N := 100000) (K := 128) (M := 128) (m ((c.tc : Thread Cert.KernelIdeal.nD Cert.KernelIdeal.τ).loc Cert.KernelIdeal.main_arg0))
        (m ((c.tc : Thread Cert.KernelIdeal.nD Cert.KernelIdeal.τ).loc Cert.KernelIdeal.main_arg3)))
      (Cert.ReferenceIdeal.Read.val_main_v44 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_result m ρ c), (h c).2⟩)
      (Cert.KernelIdeal.GenP.run (F := Ideal) m ρ)
  · refine (θ_run Cert.ReferenceIdeal.defs _ _).mono (fun r h c => ⟨(h c).1.trans ?_, (h c).2⟩)
      (Cert.ReferenceIdeal.Value.run (F := Ideal) m' ρ')
    rw [Cert.Bridge.result_eq m' c, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
